-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S3200000x8 : Shape := ⟨2, ![3200000, 8]⟩
abbrev S24x32 : Shape := ⟨2, ![24, 32]⟩
abbrev S32 : Shape := ⟨1, ![32]⟩
abbrev S32x8 : Shape := ⟨2, ![32, 8]⟩
abbrev S8 : Shape := ⟨1, ![8]⟩
abbrev S16x32 : Shape := ⟨2, ![16, 32]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000x8 : S_.BroadcastsInDim S3200000x8 (![] : Fin 0 → Fin S3200000x8.rank)
  reducesTo_S3200000x8_S_d0_1 : S3200000x8.ReducesTo [0, 1] S_
  bcast_S_S24x32 : S_.BroadcastsInDim S24x32 (![] : Fin 0 → Fin S24x32.rank)
  reducesTo_S24x32_S_d0_1 : S24x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S16x32 : S_.BroadcastsInDim S16x32 (![] : Fin 0 → Fin S16x32.rank)
  reducesTo_S16x32_S_d0_1 : S16x32.ReducesTo [0, 1] S_

variable [Facts]

def fn_part2 {F : FTy → Type} [FloatOps F] (main_arg8 : FVec F S32 .f32) (main_arg9 : FVec F S32x8 .f32) (main_arg10 : FVec F S8 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x8 .f32 := Host.absf main_arg9
  let main_cst_14 : FVec F S_ .f32 := constant S_ .f32 0x7F800000#32
  let main_v40 : FVec F S32x8 .f32 := broadcastInDim S32x8 ![] bcast_S_S32x8 main_cst_14
  let main_v41 : IVec S32x8 1 := cmpf .olt main_v39 main_v40
  let main_c_15 : IVec S_ 1 := constantI S_ 1 1#1
  let main_v42 : IVec S_ 1 := (fun x v => Host.reduce IntOp.andi x v reducesTo_S32x8_S_d0_1 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg5 : FVec F S32x8 .f32) (main_arg6 : FVec F S8 .f32) (main_arg7 : FVec F S16x32 .f32) (main_arg8 : FVec F S32 .f32) (main_arg9 : FVec F S32x8 .f32) (main_arg10 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x8 .f32 := Host.absf main_arg5
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x8 .f32) (main_arg1 : IVec S2x3200000 32) (main_arg2 : FVec F S3200000x8 .f32) (main_arg3 : FVec F S24x32 .f32) (main_arg4 : FVec F S32 .f32) (main_arg5 : FVec F S32x8 .f32) (main_arg6 : FVec F S8 .f32) (main_arg7 : FVec F S16x32 .f32) (main_arg8 : FVec F S32 .f32) (main_arg9 : FVec F S32x8 .f32) (main_arg10 : FVec F S8 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000x8 .f32 := Host.absf main_arg2
  let main_cst_0 : FVec F S_ .f32 := constant S_ .f32 0x7F800000#32
  let main_v5 : FVec F S3200000x8 .f32 := broadcastInDim S3200000x8 ![] bcast_S_S3200000x8 main_cst_0
  let main_v6 : IVec S3200000x8 1 := cmpf .olt main_v4 main_v5
  let main_c_1 : IVec S_ 1 := constantI S_ 1 1#1
  let main_v7 : IVec S_ 1 := (fun x v => Host.reduce IntOp.andi x v reducesTo_S3200000x8_S_d0_1 h_S_) main_v6 main_c_1
  let main_v8 : IVec S_ 1 := andi main_v3 main_v7
  let main_v9 : FVec F S24x32 .f32 := Host.absf main_arg3
  let main_cst_2 : FVec F S_ .f32 := constant S_ .f32 0x7F800000#32
  let main_v10 : FVec F S24x32 .f32 := broadcastInDim S24x32 ![] bcast_S_S24x32 main_cst_2
  let main_v11 : IVec S24x32 1 := cmpf .olt main_v9 main_v10
  let main_c_3 : IVec S_ 1 := constantI S_ 1 1#1
  let main_v12 : IVec S_ 1 := (fun x v => Host.reduce IntOp.andi x v reducesTo_S24x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x8 : Shape := ⟨2, ![100000, 8]⟩
abbrev S2x3200000 : Shape := ⟨2, ![2, 3200000]⟩
abbrev S3200000x8 : Shape := ⟨2, ![3200000, 8]⟩
abbrev S24x32 : Shape := ⟨2, ![24, 32]⟩
abbrev S32 : Shape := ⟨1, ![32]⟩
abbrev S32x8 : Shape := ⟨2, ![32, 8]⟩
abbrev S8 : Shape := ⟨1, ![8]⟩
abbrev S16x32 : Shape := ⟨2, ![16, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S8x32 : Shape := ⟨2, ![8, 32]⟩
abbrev S8000x8 : Shape := ⟨2, ![8000, 8]⟩
abbrev S8000x32 : Shape := ⟨2, ![8000, 32]⟩
abbrev S1x32 : Shape := ⟨2, ![1, 32]⟩
abbrev S1x8 : Shape := ⟨2, ![1, 8]⟩
abbrev S100000 : Shape := ⟨1, ![100000]⟩
abbrev S100000x1 : Shape := ⟨2, ![100000, 1]⟩
abbrev S10000x8 : Shape := ⟨2, ![10000, 8]⟩
abbrev S10000x32 : Shape := ⟨2, ![10000, 32]⟩

abbrev nBuf : Space → Nat
  | .hbm => 56
  | .vmem => 25
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x8, .f32⟩
  | .hbm, ⟨3, _⟩ => ⟨S24x32, .f32⟩
  | .hbm, ⟨4, _⟩ => ⟨S32, .f32⟩
  | .hbm, ⟨5, _⟩ => ⟨S32x8, .f32⟩
  | .hbm, ⟨6, _⟩ => ⟨S8, .f32⟩
  | .hbm, ⟨7, _⟩ => ⟨S16x32, .f32⟩
  | .hbm, ⟨8, _⟩ => ⟨S32, .f32⟩
  | .hbm, ⟨9, _⟩ => ⟨S32x8, .f32⟩
  | .hbm, ⟨10, _⟩ => ⟨S8, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x8, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x8, .f32⟩
  | .hbm, ⟨33, _⟩ => ⟨S8x32, .f32⟩
  | .hbm, ⟨34, _⟩ => ⟨S8x32, .f32⟩
  | .hbm, ⟨35, _⟩ => ⟨S8x32, .f32⟩
  | .hbm, ⟨36, _⟩ => ⟨S3200000x8, .f32⟩
  | .hbm, ⟨37, _⟩ => ⟨S_, .f32⟩
  | .hbm, ⟨38, _⟩ => ⟨S100000x8, .f32⟩
  | .hbm, ⟨39, _⟩ => ⟨S3200000x1, .i32⟩
  | .hbm, ⟨40, _⟩ => ⟨S100000x8, .f32⟩
  | .hbm, ⟨41, _⟩ => ⟨S_, .f32⟩
  | .hbm, ⟨42, _⟩ => ⟨S3200000, .f32⟩
  | .hbm, ⟨43, _⟩ => ⟨S_, .f32⟩
  | .hbm, ⟨44, _⟩ => ⟨S100000, .f32⟩
  | .hbm, ⟨45, _⟩ => ⟨S3200000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x8, .f32⟩
  | .hbm, ⟨52, _⟩ => ⟨S100000x8, .f32⟩
  | .hbm, ⟨53, _⟩ => ⟨S8x32, .f32⟩
  | .hbm, ⟨54, _⟩ => ⟨S8x32, .f32⟩
  | .hbm, ⟨55, _⟩ => ⟨S100000x8, .f32⟩
  | .local _ .vmem, ⟨0, _⟩ => ⟨S8000x8, .f32⟩
  | .local _ .vmem, ⟨1, _⟩ => ⟨S8000x8, .f32⟩
  | .local _ .vmem, ⟨2, _⟩ => ⟨S8000x8, .f32⟩
  | .local _ .vmem, ⟨3, _⟩ => ⟨S8000x8, .f32⟩
  | .local _ .vmem, ⟨4, _⟩ => ⟨S8000x8, .f32⟩
  | .local _ .vmem, ⟨5, _⟩ => ⟨S8000x8, .f32⟩
  | .local _ .vmem, ⟨6, _⟩ => ⟨S8x32, .f32⟩
  | .local _ .vmem, ⟨7, _⟩ => ⟨S8x32, .f32⟩
  | .local _ .vmem, ⟨8, _⟩ => ⟨S8x32, .f32⟩
  | .local _ .vmem, ⟨9, _⟩ => ⟨S32, .f32⟩
  | .local _ .vmem, ⟨10, _⟩ => ⟨S32x8, .f32⟩
  | .local _ .vmem, ⟨11, _⟩ => ⟨S8, .f32⟩
  | .local _ .vmem, ⟨12, _⟩ => ⟨S8000x8, .f32⟩
  | .local _ .vmem, ⟨13, _⟩ => ⟨S8000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S10000x8, .f32⟩
  | .local _ .vmem, ⟨18, _⟩ => ⟨S8x32, .f32⟩
  | .local _ .vmem, ⟨19, _⟩ => ⟨S8x32, .f32⟩
  | .local _ .vmem, ⟨20, _⟩ => ⟨S32, .f32⟩
  | .local _ .vmem, ⟨21, _⟩ => ⟨S32x8, .f32⟩
  | .local _ .vmem, ⟨22, _⟩ => ⟨S8, .f32⟩
  | .local _ .vmem, ⟨23, _⟩ => ⟨S10000x8, .f32⟩
  | .local _ .vmem, ⟨24, _⟩ => ⟨S10000x8, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S24x32_S8x32_0_0 : S24x32.Slices ![0, 0] S8x32
  slices_S24x32_S8x32_8_0 : S24x32.Slices ![8, 0] S8x32
  slices_S24x32_S8x32_16_0 : S24x32.Slices ![16, 0] S8x32
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S32x8_S32x8_0_0 : ∀ a, (![0, 0] : Fin 2 → Nat) a + S32x8.size a ≤ S32x8.size a
  h_S32x8 : 0 < S32x8.numel
  inb_S8_S8_0 : ∀ a, (![0] : Fin 1 → Nat) a + S8.size a ≤ S8.size a
  h_S8 : 0 < S8.numel
  shapeCasts_S8_S1x8 : S8.ShapeCasts S1x8
  broadcasts_S1x8_S8000x8 : S1x8.Broadcasts S8000x8
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  slices_S16x32_S8x32_0_0 : S16x32.Slices ![0, 0] S8x32
  slices_S16x32_S8x32_8_0 : S16x32.Slices ![8, 0] S8x32
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  broadcasts_S1x32_S10000x32 : S1x32.Broadcasts S10000x32
  broadcasts_S1x8_S10000x8 : S1x8.Broadcasts S10000x8
  gather_S100000x8_S3200000x1_S3200000x8_1_0_n_n_0_1_18_wf : GatherDims.WF S100000x8 S3200000x1 S3200000x8 [1] [0] [] [0] [] 1 ![1, 8]
  dot_S8000x8_S8x32_S8000x32_1_0_0_1_n_n_wf : DotDims.WF S8000x8 S8x32 S8000x32 [1] [0] [0] [1] [] []
  dot_S8000x32_S32x8_S8000x8_1_0_0_1_n_n_wf : DotDims.WF S8000x32 S32x8 S8000x8 [1] [0] [0] [1] [] []
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S10000x8_S8x32_S10000x32_1_0_0_1_n_n_wf : DotDims.WF S10000x8 S8x32 S10000x32 [1] [0] [0] [1] [] []
  dot_S10000x32_S32x8_S10000x8_1_0_0_1_n_n_wf : DotDims.WF S10000x32 S32x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x8.size a ≤ S3200000x8.size a
  hwx0_0 : ∀ i : grid0.Coords, EltTy.bits .f32 = 32 ∨ (Rect.block (s := S3200000x8) S8000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S3200000x8.size a
  hwx0_1 : ∀ i : grid0.Coords, EltTy.bits .f32 = 32 ∨ (Rect.block (s := S3200000x8) S8000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x8.size a ≤ S3200000x8.size a
  hwx0_2 : ∀ i : grid0.Coords, EltTy.bits .f32 = 32 ∨ (Rect.block (s := S3200000x8) S8000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S8x32.size a
  hwx0_3 : ∀ i : grid0.Coords, EltTy.bits .f32 = 32 ∨ (Rect.block (s := S8x32) S8x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .f32 = 32 ∨ (Rect.block (s := S8x32) S8x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x8.size a ≤ S32x8.size a
  hwx0_7 : ∀ i : grid0.Coords, EltTy.bits .f32 = 32 ∨ (Rect.block (s := S32x8) S32x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x8.size a ≤ S3200000x8.size a
  hwx0_9 : ∀ i : grid0.Coords, EltTy.bits .f32 = 32 ∨ (Rect.block (s := S3200000x8) S8000x8.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S100000x8.size a
  hwx1_0 : ∀ i : grid1.Coords, EltTy.bits .f32 = 32 ∨ (Rect.block (s := S100000x8) S10000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S100000x8.size a
  hwx1_1 : ∀ i : grid1.Coords, EltTy.bits .f32 = 32 ∨ (Rect.block (s := S100000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x32.size a ≤ S8x32.size a
  hwx1_2 : ∀ i : grid1.Coords, EltTy.bits .f32 = 32 ∨ (Rect.block (s := S8x32) S8x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x32.size a ≤ S8x32.size a
  hwx1_3 : ∀ i : grid1.Coords, EltTy.bits .f32 = 32 ∨ (Rect.block (s := S8x32) S8x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x8.size a ≤ S32x8.size a
  hwx1_5 : ∀ i : grid1.Coords, EltTy.bits .f32 = 32 ∨ (Rect.block (s := S32x8) S32x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8.size a ≤ S8.size a
  hwx1_6 : ∀ i : grid1.Coords, EltTy.bits .f32 = 32 ∨ (Rect.block (s := S8) S8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x8.size a ≤ S100000x8.size a
  hwx1_7 : ∀ i : grid1.Coords, EltTy.bits .f32 = 32 ∨ (Rect.block (s := S100000x8) S10000x8.size (cc1_transform_7 i) (hinb1_7 i)).WholeWords (EltTy.packing .f32)

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S8000x8_S8x32_S8000x32_1_0_0_1_n_n : DotDims S8000x8 S8x32 S8000x32 where
  lhsContracting := [1]
  rhsContracting := [0]
  lhsNonContracting := [0]
  rhsNonContracting := [1]
  lhsBatch := []
  rhsBatch := []
  wf := dot_S8000x8_S8x32_S8000x32_1_0_0_1_n_n_wf
def dot_S8000x32_S32x8_S8000x8_1_0_0_1_n_n : DotDims S8000x32 S32x8 S8000x8 where
  lhsContracting := [1]
  rhsContracting := [0]
  lhsNonContracting := [0]
  rhsNonContracting := [1]
  lhsBatch := []
  rhsBatch := []
  wf := dot_S8000x32_S32x8_S8000x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def dot_S10000x32_S32x8_S10000x8_1_0_0_1_n_n : DotDims S10000x32 S32x8 S10000x8 where
  lhsContracting := [1]
  rhsContracting := [0]
  lhsNonContracting := [0]
  rhsNonContracting := [1]
  lhsBatch := []
  rhsBatch := []
  wf := dot_S10000x32_S32x8_S10000x8_1_0_0_1_n_n_wf

abbrev win0_0 : Pipeline.Window sig grid0 :=
  Pipeline.Window.ofSpec (Memref.whole main_v10) S8000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S32x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S8000x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S8x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S8x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S32x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S10000x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S3200000x8 : Shape := ⟨2, ![3200000, 8]⟩
abbrev S24x32 : Shape := ⟨2, ![24, 32]⟩
abbrev S32 : Shape := ⟨1, ![32]⟩
abbrev S32x8 : Shape := ⟨2, ![32, 8]⟩
abbrev S8 : Shape := ⟨1, ![8]⟩
abbrev S16x32 : Shape := ⟨2, ![16, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x24 : Shape := ⟨2, ![3200000, 24]⟩
abbrev S3200000x32 : Shape := ⟨2, ![3200000, 32]⟩
abbrev S1x32 : Shape := ⟨2, ![1, 32]⟩
abbrev S1x8 : Shape := ⟨2, ![1, 8]⟩
abbrev S100000 : Shape := ⟨1, ![100000]⟩
abbrev S100000x1 : Shape := ⟨2, ![100000, 1]⟩
abbrev S100000x16 : Shape := ⟨2, ![100000, 16]⟩
abbrev S100000x32 : Shape := ⟨2, ![100000, 32]⟩

abbrev nBuf : Space → Nat
  | .hbm => 73
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x8, .f32⟩
  | .hbm, ⟨3, _⟩ => ⟨S24x32, .f32⟩
  | .hbm, ⟨4, _⟩ => ⟨S32, .f32⟩
  | .hbm, ⟨5, _⟩ => ⟨S32x8, .f32⟩
  | .hbm, ⟨6, _⟩ => ⟨S8, .f32⟩
  | .hbm, ⟨7, _⟩ => ⟨S16x32, .f32⟩
  | .hbm, ⟨8, _⟩ => ⟨S32, .f32⟩
  | .hbm, ⟨9, _⟩ => ⟨S32x8, .f32⟩
  | .hbm, ⟨10, _⟩ => ⟨S8, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x8, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x8, .f32⟩
  | .hbm, ⟨33, _⟩ => ⟨S3200000x24, .f32⟩
  | .hbm, ⟨34, _⟩ => ⟨S3200000x32, .f32⟩
  | .hbm, ⟨35, _⟩ => ⟨S1x32, .f32⟩
  | .hbm, ⟨36, _⟩ => ⟨S3200000x32, .f32⟩
  | .hbm, ⟨37, _⟩ => ⟨S3200000x32, .f32⟩
  | .hbm, ⟨38, _⟩ => ⟨S_, .f32⟩
  | .hbm, ⟨39, _⟩ => ⟨S3200000x32, .f32⟩
  | .hbm, ⟨40, _⟩ => ⟨S3200000x32, .f32⟩
  | .hbm, ⟨41, _⟩ => ⟨S3200000x8, .f32⟩
  | .hbm, ⟨42, _⟩ => ⟨S1x8, .f32⟩
  | .hbm, ⟨43, _⟩ => ⟨S3200000x8, .f32⟩
  | .hbm, ⟨44, _⟩ => ⟨S3200000x8, .f32⟩
  | .hbm, ⟨45, _⟩ => ⟨S_, .f32⟩
  | .hbm, ⟨46, _⟩ => ⟨S100000x8, .f32⟩
  | .hbm, ⟨47, _⟩ => ⟨S3200000x1, .i32⟩
  | .hbm, ⟨48, _⟩ => ⟨S100000x8, .f32⟩
  | .hbm, ⟨49, _⟩ => ⟨S_, .f32⟩
  | .hbm, ⟨50, _⟩ => ⟨S3200000, .f32⟩
  | .hbm, ⟨51, _⟩ => ⟨S_, .f32⟩
  | .hbm, ⟨52, _⟩ => ⟨S100000, .f32⟩
  | .hbm, ⟨53, _⟩ => ⟨S3200000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x8, .f32⟩
  | .hbm, ⟨60, _⟩ => ⟨S100000x8, .f32⟩
  | .hbm, ⟨61, _⟩ => ⟨S100000x16, .f32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x8, .f32⟩
  | .hbm, ⟨70, _⟩ => ⟨S1x8, .f32⟩
  | .hbm, ⟨71, _⟩ => ⟨S100000x8, .f32⟩
  | .hbm, ⟨72, _⟩ => ⟨S100000x8, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x8_S3200000x8_S3200000x8_S3200000x24_d1 : Shape.Concatenates [S3200000x8, S3200000x8, S3200000x8] S3200000x24 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  concatenates_S100000x8_S100000x8_S100000x16_d1 : Shape.Concatenates [S100000x8, S100000x8] S100000x16 1
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x8_S100000x8_0_1 : S1x8.BroadcastsInDim S100000x8 (![0, 1] : Fin 2 → Fin S100000x8.rank)
  gather_S100000x8_S3200000x1_S3200000x8_1_0_n_n_0_1_18_wf : GatherDims.WF S100000x8 S3200000x1 S3200000x8 [1] [0] [] [0] [] 1 ![1, 8]
  dot_S3200000x24_S24x32_S3200000x32_1_0_0_1_n_n_wf : DotDims.WF S3200000x24 S24x32 S3200000x32 [1] [0] [0] [1] [] []
  dot_S3200000x32_S32x8_S3200000x8_1_0_0_1_n_n_wf : DotDims.WF S3200000x32 S32x8 S3200000x8 [1] [0] [0] [1] [] []
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x16_S16x32_S100000x32_1_0_0_1_n_n_wf : DotDims.WF S100000x16 S16x32 S100000x32 [1] [0] [0] [1] [] []
  dot_S100000x32_S32x8_S100000x8_1_0_0_1_n_n_wf : DotDims.WF S100000x32 S32x8 S100000x8 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x24_S24x32_S3200000x32_1_0_0_1_n_n : DotDims S3200000x24 S24x32 S3200000x32 where
  lhsContracting := [1]
  rhsContracting := [0]
  lhsNonContracting := [0]
  rhsNonContracting := [1]
  lhsBatch := []
  rhsBatch := []
  wf := dot_S3200000x24_S24x32_S3200000x32_1_0_0_1_n_n_wf
def dot_S3200000x32_S32x8_S3200000x8_1_0_0_1_n_n : DotDims S3200000x32 S32x8 S3200000x8 where
  lhsContracting := [1]
  rhsContracting := [0]
  lhsNonContracting := [0]
  rhsNonContracting := [1]
  lhsBatch := []
  rhsBatch := []
  wf := dot_S3200000x32_S32x8_S3200000x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Mlp.lean ====
/-
  The two perceptrons of the message-passing layer, row by row on the extended reals.

  The edge update feeds each edge the 24 numbers [x[row], x[col], edge_attr] through a 24→32 layer, a ReLU and a 32→8
  layer; the node update feeds each node the 16 numbers [x, mean of its outgoing edges' embeddings] through a 16→32
  layer, a ReLU and a 32→8 layer. The kernel never joins the inputs: it multiplies each 8-column part by its own
  8-row block of the first weight and adds the products. The reference joins them and multiplies once. At (p, h) the
  reference's sum over 24 (or 16) columns, cut into runs of 8, is the kernel's sum of partial products: a regrouping
  of a finite sum in a commutative monoid, true of every extended real, so no finiteness is used anywhere.
-/
import Idealize.ShloMosaic.PureOps.Ideal.Laws
import Idealize.ShloMosaic.Lib.ValueIdx
import Idealize.ShloMosaic.Lib.ValueLayout
import Idealize.ShloMosaic.Lib.Pipeline.Value
import proofs.«133456_j13786845020472_1_alg».proof.Proof.LibMatmul

noncomputable section

namespace Cert.Mlp

open Idealize.ShloMosaic Idealize.ShloMosaic.ValueIdx

/-- One row of the edge perceptron: three 8-vectors `a`, `b`, `c` meet their own 8×32 weight blocks, the three
    products are added in that order, then the bias, the maximum with `z`, the 32×8 second layer and its bias. -/
def edgeRow (a b c : Fin 8 → EReal) (w0 w1 w2 : FVec Ideal ⟨2, ![8, 32]⟩ .f32) (b1 : FVec Ideal ⟨1, ![32]⟩ .f32)
    (w' : FVec Ideal ⟨2, ![32, 8]⟩ .f32) (b2 : FVec Ideal ⟨1, ![8]⟩ .f32) (z : EReal) (q : Fin 8) : EReal :=
  (∑ h : Fin 32, max ((((∑ k : Fin 8, a k * w0 (ix2 k h)) + ∑ k : Fin 8, b k * w1 (ix2 k h))
      + ∑ k : Fin 8, c k * w2 (ix2 k h)) + b1 (ix1 h)) z * w' (ix2 h q)) + b2 (ix1 q)

/-- One row of the node perceptron: the same with two 8-vectors. -/
def nodeRow (a b : Fin 8 → EReal) (w0 w1 : FVec Ideal ⟨2, ![8, 32]⟩ .f32) (b1 : FVec Ideal ⟨1, ![32]⟩ .f32)
    (w' : FVec Ideal ⟨2, ![32, 8]⟩ .f32) (b2 : FVec Ideal ⟨1, ![8]⟩ .f32) (z : EReal) (q : Fin 8) : EReal :=
  (∑ h : Fin 32, max (((∑ k : Fin 8, a k * w0 (ix2 k h)) + ∑ k : Fin 8, b k * w1 (ix2 k h)) + b1 (ix1 h)) z
      * w' (ix2 h q)) + b2 (ix1 q)

/-- The edge perceptron applied to every row of three R×8 arrays. -/
def edgeArr {R : Nat} (A B C : FVec Ideal ⟨2, ![R, 8]⟩ .f32) (w0 w1 w2 : FVec Ideal ⟨2, ![8, 32]⟩ .f32)
    (b1 : FVec Ideal ⟨1, ![32]⟩ .f32) (w' : FVec Ideal ⟨2, ![32, 8]⟩ .f32) (b2 : FVec Ideal ⟨1, ![8]⟩ .f32) :
    FVec Ideal ⟨2, ![R, 8]⟩ .f32 :=
  fun i => edgeRow (fun k => A (ix2 (i 0) k)) (fun k => B (ix2 (i 0) k)) (fun k => C (ix2 (i 0) k)) w0 w1 w2 b1 w' b2
    (Ideal.ofBits .f32 0x00000000#32) (i 1)

/-- The node perceptron applied to every row of two R×8 arrays. -/
def nodeArr {R : Nat} (A B : FVec Ideal ⟨2, ![R, 8]⟩ .f32) (w0 w1 : FVec Ideal ⟨2, ![8, 32]⟩ .f32)
    (b1 : FVec Ideal ⟨1, ![32]⟩ .f32) (w' : FVec Ideal ⟨2, ![32, 8]⟩ .f32) (b2 : FVec Ideal ⟨1, ![8]⟩ .f32) :
    FVec Ideal ⟨2, ![R, 8]⟩ .f32 :=
  fun i => nodeRow (fun k => A (ix2 (i 0) k)) (fun k => B (ix2 (i 0) k)) w0 w1 b1 w' b2
    (Ideal.ofBits .f32 0x00000000#32) (i 1)

theorem edgeArr_apply {R : Nat} (A B C : FVec Ideal ⟨2, ![R, 8]⟩ .f32) (w0 w1 w2 : FVec Ideal ⟨2, ![8, 32]⟩ .f32)
    (b1 : FVec Ideal ⟨1, ![32]⟩ .f32) (w' : FVec Ideal ⟨2, ![32, 8]⟩ .f32) (b2 : FVec Ideal ⟨1, ![8]⟩ .f32)
    (p : Fin R) (q : Fin 8) :
    edgeArr A B C w0 w1 w2 b1 w' b2 (ix2 p q)
      = edgeRow (fun k => A (ix2 p k)) (fun k => B (ix2 p k)) (fun k => C (ix2 p k)) w0 w1 w2 b1 w' b2
          (Ideal.ofBits .f32 0x00000000#32) q := rfl

theorem nodeArr_apply {R : Nat} (A B : FVec Ideal ⟨2, ![R, 8]⟩ .f32) (w0 w1 : FVec Ideal ⟨2, ![8, 32]⟩ .f32)
    (b1 : FVec Ideal ⟨1, ![32]⟩ .f32) (w' : FVec Ideal ⟨2, ![32, 8]⟩ .f32) (b2 : FVec Ideal ⟨1, ![8]⟩ .f32)
    (p : Fin R) (q : Fin 8) :
    nodeArr A B w0 w1 b1 w' b2 (ix2 p q)
      = nodeRow (fun k => A (ix2 p k)) (fun k => B (ix2 p k)) w0 w1 b1 w' b2 (Ideal.ofBits .f32 0x00000000#32) q := rfl

/-- A sum over 24 terms is the sum of its three runs of 8, in order. -/
theorem sum24 {M : Type} [AddCommMonoid M] (f : Fin 24 → M) :
    ∑ k : Fin 24, f k
      = ((∑ k : Fin 8, f ⟨k.val, by omega⟩) + ∑ k : Fin 8, f ⟨8 + k.val, by omega⟩) + ∑ k : Fin 8, f ⟨16 + k.val, by omega⟩ := by
  have h1 := Fin.sum_univ_add (a := 16) (b := 8) (f : Fin (16 + 8) → M)
  have h2 := Fin.sum_univ_add (a := 8) (b := 8) (fun i : Fin (8 + 8) => f (Fin.castAdd 8 i))
  exact h1.trans (congrArg (· + _) h2)

/-- A sum over 16 terms is the sum of its two runs of 8, in order. -/
theorem sum16 {M : Type} [AddCommMonoid M] (f : Fin 16 → M) :
    ∑ k : Fin 16, f k = (∑ k : Fin 8, f ⟨k.val, by omega⟩) + ∑ k : Fin 8, f ⟨8 + k.val, by omega⟩ := by
  exact Fin.sum_univ_add (a := 8) (b := 8) (f : Fin (8 + 8) → M)

end Cert.Mlp

namespace Cert.Mlp

open Idealize.ShloMosaic Idealize.ShloMosaic.ValueIdx

/-- Three R×8 arrays joined along the columns: column `k`, `8 + k`, `16 + k` of row `p` is column `k` of the first,
    second, third array's row `p`. -/
theorem concat3_at {R : Nat} (A B C : (⟨2, ![R, 8]⟩ : Shape).Idx → EReal)
    (hc : Shape.Concatenates [(⟨2, ![R, 8]⟩ : Shape), ⟨2, ![R, 8]⟩, ⟨2, ![R, 8]⟩] ⟨2, ![R, 24]⟩ 1) (p : Fin R) (k : Fin 8) :
    concatenate ⟨2, ![R, 24]⟩ 1 [⟨⟨2, ![R, 8]⟩, A⟩, ⟨⟨2, ![R, 8]⟩, B⟩, ⟨⟨2, ![R, 8]⟩, C⟩] hc (ix2 p ⟨k.val, by omega⟩) = A (ix2 p k)
    ∧ concatenate ⟨2, ![R, 24]⟩ 1 [⟨⟨2, ![R, 8]⟩, A⟩, ⟨⟨2, ![R, 8]⟩, B⟩, ⟨⟨2, ![R, 8]⟩, C⟩] hc (ix2 p ⟨8 + k.val, by omega⟩) = B (ix2 p k)
    ∧ concatenate ⟨2, ![R, 24]⟩ 1 [⟨⟨2, ![R, 8]⟩, A⟩, ⟨⟨2, ![R, 8]⟩, B⟩, ⟨⟨2, ![R, 8]⟩, C⟩] hc (ix2 p ⟨16 + k.val, by omega⟩) = C (ix2 p k) := by
  refine ⟨?_, ?_, ?_⟩
  · refine concatenate_apply_piece (t := ⟨2, ![R, 24]⟩) (1 : Fin 2) [⟨⟨2, ![R, 8]⟩, A⟩, ⟨⟨2, ![R, 8]⟩, B⟩, ⟨⟨2, ![R, 8]⟩, C⟩] hc _ 0 (by simp) ⟨2, ![R, 8]⟩ A rfl rfl 0 rfl (ix2 p k) ?_ ?_
    · intro b hb
      match b with
      | ⟨0, _⟩ => rfl
      | ⟨1, _⟩ => exact absurd rfl hb
    · show 0 + k.val = k.val
      omega
  · refine concatenate_apply_piece (t := ⟨2, ![R, 24]⟩) (1 : Fin 2) [⟨⟨2, ![R, 8]⟩, A⟩, ⟨⟨2, ![R, 8]⟩, B⟩, ⟨⟨2, ![R, 8]⟩, C⟩] hc _ 1 (by simp) ⟨2, ![R, 8]⟩ B rfl rfl 8 rfl (ix2 p k) ?_ ?_
    · intro b hb
      match b with
      | ⟨0, _⟩ => rfl
      | ⟨1, _⟩ => exact absurd rfl hb
    · rfl
  · refine concatenate_apply_piece (t := ⟨2, ![R, 24]⟩) (1 : Fin 2) [⟨⟨2, ![R, 8]⟩, A⟩, ⟨⟨2, ![R, 8]⟩, B⟩, ⟨⟨2, ![R, 8]⟩, C⟩] hc _ 2 (by simp) ⟨2, ![R, 8]⟩ C rfl rfl 16 rfl (ix2 p k) ?_ ?_
    · intro b hb
      match b with
      | ⟨0, _⟩ => rfl
      | ⟨1, _⟩ => exact absurd rfl hb
    · rfl

/-- A length-n vector made a 1×n row and copied to every row of an R×n array reads, at (p, j), the vector at j. -/
theorem rowBias_at {R n : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![R, n]⟩ ![0, 1]) (p : Fin R) (j : Fin n) :
    broadcastInDim ⟨2, ![R, n]⟩ ![0, 1] h2 (broadcastInDim ⟨2, ![1, n]⟩ ![1] h1 b) (ix2 p j) = b (ix1 j) := by
  refine (broadcastInDim_apply ![0, 1] h2 _ (ix2 p j) (ix2 (0 : Fin 1) j) fun a => ?_).trans
    (broadcastInDim_apply ![1] h1 b (ix2 (0 : Fin 1) j) (ix1 j) fun a => ?_)
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- A scalar copied to every place of an array reads the scalar. -/
theorem splat_at {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun a => a.elim0

end Cert.Mlp

namespace Cert.Mlp

open Idealize.ShloMosaic Idealize.ShloMosaic.ValueIdx

/-- THE REFERENCE'S EDGE PERCEPTRON IS THE KERNEL'S. The three arrays joined to R×24 and multiplied by the whole 24×32
    weight give, at (p, h), a sum over 24 columns; split in its three runs of 8 it is the sum of the three products of
    each array with its own 8-row block of the weight. Only the grouping of a sum changes. -/
theorem ref_edge {R : Nat} (A B C : FVec Ideal ⟨2, ![R, 8]⟩ .f32) (W : FVec Ideal ⟨2, ![24, 32]⟩ .f32)
    (b1 : FVec Ideal ⟨1, ![32]⟩ .f32) (W' : FVec Ideal ⟨2, ![32, 8]⟩ .f32) (b2 : FVec Ideal ⟨1, ![8]⟩ .f32)
    (hc : Shape.Concatenates [(⟨2, ![R, 8]⟩ : Shape), ⟨2, ![R, 8]⟩, ⟨2, ![R, 8]⟩] ⟨2, ![R, 24]⟩ 1)
    (hb1 : (⟨1, ![32]⟩ : Shape).BroadcastsInDim ⟨2, ![1, 32]⟩ ![1])
    (hb1' : (⟨2, ![1, 32]⟩ : Shape).BroadcastsInDim ⟨2, ![R, 32]⟩ ![0, 1])
    (hz : (⟨0, ![]⟩ : Shape).BroadcastsInDim ⟨2, ![R, 32]⟩ ![])
    (hb2 : (⟨1, ![8]⟩ : Shape).BroadcastsInDim ⟨2, ![1, 8]⟩ ![1])
    (hb2' : (⟨2, ![1, 8]⟩ : Shape).BroadcastsInDim ⟨2, ![R, 8]⟩ ![0, 1])
    (hs0 : (⟨2, ![24, 32]⟩ : Shape).Slices ![0, 0] ⟨2, ![8, 32]⟩)
    (hs1 : (⟨2, ![24, 32]⟩ : Shape).Slices ![8, 0] ⟨2, ![8, 32]⟩)
    (hs2 : (⟨2, ![24, 32]⟩ : Shape).Slices ![16, 0] ⟨2, ![8, 32]⟩) :
    addf (Host.dotGeneral (DotDims.plain R 32 8) none
        (maximumf (addf (Host.dotGeneral (DotDims.plain R 24 32) none
              (concatenate ⟨2, ![R, 24]⟩ 1 [⟨⟨2, ![R, 8]⟩, A⟩, ⟨⟨2, ![R, 8]⟩, B⟩, ⟨⟨2, ![R, 8]⟩, C⟩] hc) W)
            (broadcastInDim ⟨2, ![R, 32]⟩ ![0, 1] hb1' (broadcastInDim ⟨2, ![1, 32]⟩ ![1] hb1 b1)))
          (broadcastInDim ⟨2, ![R, 32]⟩ ![] hz (constant (F := Ideal) ⟨0, ![]⟩ .f32 0x00000000#32))) W')
      (broadcastInDim ⟨2, ![R, 8]⟩ ![0, 1] hb2' (broadcastInDim ⟨2, ![1, 8]⟩ ![1] hb2 b2))
    = edgeArr A B C (extractStridedSlice ⟨2, ![8, 32]⟩ ![0, 0] W hs0) (extractStridedSlice ⟨2, ![8, 32]⟩ ![8, 0] W hs1)
        (extractStridedSlice ⟨2, ![8, 32]⟩ ![16, 0] W hs2) b1 W' b2 := by
  funext i
  obtain ⟨p, q, rfl⟩ : ∃ (p : Fin R) (q : Fin 8), i = ix2 p q := ⟨i 0, i 1, eq_ix2 i⟩
  rw [edgeArr_apply, addf_apply]
  unfold edgeRow
  refine congrArg₂ (· + ·) ?_ (rowBias_at b2 hb2 hb2' p q)
  refine (Cert.Matmul.dotGeneral_plain_apply none .single _ W' p q).trans ?_
  refine Finset.sum_congr rfl fun h _ => ?_
  refine congrArg (· * W' (ix2 h q)) ?_
  rw [maximumf_apply, addf_apply]
  refine congrArg₂ max (congrArg₂ (· + ·) ?_ (rowBias_at b1 hb1 hb1' p h)) ((splat_at _ hz _).trans rfl)
  refine (Cert.Matmul.dotGeneral_plain_apply none .single _ W p h).trans ?_
  rw [sum24]
  refine congrArg₂ (· + ·) (congrArg₂ (· + ·) ?_ ?_) ?_ <;> refine Finset.sum_congr rfl fun k _ => ?_
  · rw [(concat3_at A B C hc p k).1, slice2_axis0_apply 0 W hs0 k h ⟨k.val, by omega⟩ (by simp)]
  · rw [(concat3_at A B C hc p k).2.1, slice2_axis0_apply 8 W hs1 k h ⟨8 + k.val, by omega⟩ rfl]
  · rw [(concat3_at A B C hc p k).2.2, slice2_axis0_apply 16 W hs2 k h ⟨16 + k.val, by omega⟩ rfl]

end Cert.Mlp

namespace Cert.Mlp

open Idealize.ShloMosaic Idealize.ShloMosaic.ValueIdx

/-- Two R×8 arrays joined along the columns: column `k`, `8 + k` of row `p` is column `k` of the first, second array's row `p`. -/
theorem concat2_at {R : Nat} (A B : (⟨2, ![R, 8]⟩ : Shape).Idx → EReal)
    (hc : Shape.Concatenates [(⟨2, ![R, 8]⟩ : Shape), ⟨2, ![R, 8]⟩] ⟨2, ![R, 16]⟩ 1) (p : Fin R) (k : Fin 8) :
    concatenate ⟨2, ![R, 16]⟩ 1 [⟨⟨2, ![R, 8]⟩, A⟩, ⟨⟨2, ![R, 8]⟩, B⟩] hc (ix2 p ⟨k.val, by omega⟩) = A (ix2 p k)
    ∧ concatenate ⟨2, ![R, 16]⟩ 1 [⟨⟨2, ![R, 8]⟩, A⟩, ⟨⟨2, ![R, 8]⟩, B⟩] hc (ix2 p ⟨8 + k.val, by omega⟩) = B (ix2 p k) := by
  refine ⟨?_, ?_⟩
  · refine concatenate_apply_piece (t := ⟨2, ![R, 16]⟩) (1 : Fin 2) [⟨⟨2, ![R, 8]⟩, A⟩, ⟨⟨2, ![R, 8]⟩, B⟩] hc _ 0 (by simp) ⟨2, ![R, 8]⟩ A rfl rfl 0 rfl (ix2 p k) ?_ ?_
    · intro b hb
      match b with
      | ⟨0, _⟩ => rfl
      | ⟨1, _⟩ => exact absurd rfl hb
    · show 0 + k.val = k.val
      omega
  · refine concatenate_apply_piece (t := ⟨2, ![R, 16]⟩) (1 : Fin 2) [⟨⟨2, ![R, 8]⟩, A⟩, ⟨⟨2, ![R, 8]⟩, B⟩] hc _ 1 (by simp) ⟨2, ![R, 8]⟩ B rfl rfl 8 rfl (ix2 p k) ?_ ?_
    · intro b hb
      match b with
      | ⟨0, _⟩ => rfl
      | ⟨1, _⟩ => exact absurd rfl hb
    · rfl

/-- THE REFERENCE'S NODE PERCEPTRON IS THE KERNEL'S: the sum over the 16 joined columns is the sum of the two products of
    each array with its own 8-row block of the weight. -/
theorem ref_node {R : Nat} (A B : FVec Ideal ⟨2, ![R, 8]⟩ .f32) (W : FVec Ideal ⟨2, ![16, 32]⟩ .f32)
    (b1 : FVec Ideal ⟨1, ![32]⟩ .f32) (W' : FVec Ideal ⟨2, ![32, 8]⟩ .f32) (b2 : FVec Ideal ⟨1, ![8]⟩ .f32)
    (hc : Shape.Concatenates [(⟨2, ![R, 8]⟩ : Shape), ⟨2, ![R, 8]⟩] ⟨2, ![R, 16]⟩ 1)
    (hb1 : (⟨1, ![32]⟩ : Shape).BroadcastsInDim ⟨2, ![1, 32]⟩ ![1])
    (hb1' : (⟨2, ![1, 32]⟩ : Shape).BroadcastsInDim ⟨2, ![R, 32]⟩ ![0, 1])
    (hz : (⟨0, ![]⟩ : Shape).BroadcastsInDim ⟨2, ![R, 32]⟩ ![])
    (hb2 : (⟨1, ![8]⟩ : Shape).BroadcastsInDim ⟨2, ![1, 8]⟩ ![1])
    (hb2' : (⟨2, ![1, 8]⟩ : Shape).BroadcastsInDim ⟨2, ![R, 8]⟩ ![0, 1])
    (hs0 : (⟨2, ![16, 32]⟩ : Shape).Slices ![0, 0] ⟨2, ![8, 32]⟩)
    (hs1 : (⟨2, ![16, 32]⟩ : Shape).Slices ![8, 0] ⟨2, ![8, 32]⟩) :
    addf (Host.dotGeneral (DotDims.plain R 32 8) none
        (maximumf (addf (Host.dotGeneral (DotDims.plain R 16 32) none
              (concatenate ⟨2, ![R, 16]⟩ 1 [⟨⟨2, ![R, 8]⟩, A⟩, ⟨⟨2, ![R, 8]⟩, B⟩] hc) W)
            (broadcastInDim ⟨2, ![R, 32]⟩ ![0, 1] hb1' (broadcastInDim ⟨2, ![1, 32]⟩ ![1] hb1 b1)))
          (broadcastInDim ⟨2, ![R, 32]⟩ ![] hz (constant (F := Ideal) ⟨0, ![]⟩ .f32 0x00000000#32))) W')
      (broadcastInDim ⟨2, ![R, 8]⟩ ![0, 1] hb2' (broadcastInDim ⟨2, ![1, 8]⟩ ![1] hb2 b2))
    = nodeArr A B (extractStridedSlice ⟨2, ![8, 32]⟩ ![0, 0] W hs0) (extractStridedSlice ⟨2, ![8, 32]⟩ ![8, 0] W hs1) b1 W' b2 := by
  funext i
  obtain ⟨p, q, rfl⟩ : ∃ (p : Fin R) (q : Fin 8), i = ix2 p q := ⟨i 0, i 1, eq_ix2 i⟩
  rw [nodeArr_apply, addf_apply]
  unfold nodeRow
  refine congrArg₂ (· + ·) ?_ (rowBias_at b2 hb2 hb2' p q)
  refine (Cert.Matmul.dotGeneral_plain_apply none .single _ W' p q).trans ?_
  refine Finset.sum_congr rfl fun h _ => ?_
  refine congrArg (· * W' (ix2 h q)) ?_
  rw [maximumf_apply, addf_apply]
  refine congrArg₂ max (congrArg₂ (· + ·) ?_ (rowBias_at b1 hb1 hb1' p h)) ((splat_at _ hz _).trans rfl)
  refine (Cert.Matmul.dotGeneral_plain_apply none .single _ W p h).trans ?_
  rw [sum16]
  refine congrArg₂ (· + ·) ?_ ?_ <;> refine Finset.sum_congr rfl fun k _ => ?_
  · rw [(concat2_at A B hc p k).1, slice2_axis0_apply 0 W hs0 k h ⟨k.val, by omega⟩ (by simp)]
  · rw [(concat2_at A B hc p k).2, slice2_axis0_apply 8 W hs1 k h ⟨8 + k.val, by omega⟩ rfl]

end Cert.Mlp

namespace Cert.Mlp

open Idealize.ShloMosaic Idealize.ShloMosaic.ValueIdx

/-- The edge row function depends on its three input rows only through their values. -/
theorem edgeRow_congr {a a' b b' c c' : Fin 8 → EReal} {w0 w1 w2 : FVec Ideal ⟨2, ![8, 32]⟩ .f32} {b1 : FVec Ideal ⟨1, ![32]⟩ .f32}
    {w' : FVec Ideal ⟨2, ![32, 8]⟩ .f32} {b2 : FVec Ideal ⟨1, ![8]⟩ .f32} {z : EReal} {q : Fin 8}
    (ha : ∀ k, a k = a' k) (hb : ∀ k, b k = b' k) (hc : ∀ k, c k = c' k) :
    edgeRow a b c w0 w1 w2 b1 w' b2 z q = edgeRow a' b' c' w0 w1 w2 b1 w' b2 z q := by
  rw [funext ha, funext hb, funext hc]

/-- The node row function depends on its two input rows only through their values. -/
theorem nodeRow_congr {a a' b b' : Fin 8 → EReal} {w0 w1 : FVec Ideal ⟨2, ![8, 32]⟩ .f32} {b1 : FVec Ideal ⟨1, ![32]⟩ .f32}
    {w' : FVec Ideal ⟨2, ![32, 8]⟩ .f32} {b2 : FVec Ideal ⟨1, ![8]⟩ .f32} {z : EReal} {q : Fin 8}
    (ha : ∀ k, a k = a' k) (hb : ∀ k, b k = b' k) :
    nodeRow a b w0 w1 b1 w' b2 z q = nodeRow a' b' w0 w1 b1 w' b2 z q := by
  rw [funext ha, funext hb]

end Cert.Mlp

end
-- ==== Proof.Blocks.lean ====
/-
  What each kernel body stores, as a function of the blocks it loads: the body of the edge kernel computes the edge
  perceptron of its three 8000×8 blocks, the body of the node kernel the node perceptron of its two 10000×8 blocks, row
  by row. Each product into a zero accumulator is a sum over the 8 (or 32) contracted columns; the bias rows are a
  vector made a one-row matrix and copied down the rows; the ReLU is the maximum with the splat of the zero word.
-/
import proofs.«133456_j13786845020472_1_alg».proof.Proof.Gen.KernelIdeal.Skeleton
import proofs.«133456_j13786845020472_1_alg».proof.Proof.Mlp

noncomputable section

namespace Cert.Gnn

open Cert.KernelIdeal Cert.KernelIdeal.Gen Cert.Mlp
open Idealize.ShloMosaic Idealize.ShloMosaic.ValueIdx

/-- The edge kernel's stored value is the edge perceptron of the loaded blocks. -/
theorem edge_payload (v0 : FVec Ideal S8000x8 .f32) (v2 : FVec Ideal S8x32 .f32) (v5 : FVec Ideal S8000x8 .f32)
    (v7 : FVec Ideal S8x32 .f32) (v11 : FVec Ideal S8000x8 .f32) (v12 : FVec Ideal S8x32 .f32) (v16 : FVec Ideal S32 .f32)
    (v22 : FVec Ideal S32x8 .f32) (v24 : FVec Ideal S8 .f32) :
    k0_pay1 (F := Ideal) v0 v2 v5 v7 v11 v12 v16 v22 v24 = edgeArr (R := 8000) v0 v5 v11 v2 v7 v12 v16 v22 v24 := by
  funext i
  obtain ⟨p, q, rfl⟩ : ∃ (p : Fin 8000) (q : Fin 8), i = ix2 p q := ⟨i 0, i 1, eq_ix2 i⟩
  rw [edgeArr_apply]
  unfold k0_pay1 edgeRow
  simp only [shapeCast_self]
  rw [addf_apply]
  refine congrArg₂ (· + ·) ?_ ((broadcastTo_1b_ab_apply _ _ p q).trans (shapeCast_a_1a_apply v24 _ 0 q))
  refine (Cert.Matmul.matmul_plain_apply none _ v22 p q).trans ?_
  refine Finset.sum_congr rfl fun h _ => ?_
  refine congrArg (· * v22 (ix2 h q)) ?_
  rw [maximumf_apply, addf_apply, addf_apply, addf_apply]
  refine congrArg₂ max (congrArg₂ (· + ·) (congrArg₂ (· + ·) (congrArg₂ (· + ·) ?_ ?_) ?_) ?_) rfl
  · exact Cert.Matmul.matmul_plain_apply none v0 v2 p h
  · exact Cert.Matmul.matmul_plain_apply none v5 v7 p h
  · exact Cert.Matmul.matmul_plain_apply none v11 v12 p h
  · exact (broadcastTo_1b_ab_apply _ _ p h).trans (shapeCast_a_1a_apply v16 _ 0 h)

/-- The node kernel's stored value is the node perceptron of the loaded blocks. -/
theorem node_payload (v0 : FVec Ideal S10000x8 .f32) (v1 : FVec Ideal S8x32 .f32) (v4 : FVec Ideal S10000x8 .f32)
    (v6 : FVec Ideal S8x32 .f32) (v10 : FVec Ideal S32 .f32) (v16 : FVec Ideal S32x8 .f32) (v18 : FVec Ideal S8 .f32) :
    k1_pay1 (F := Ideal) v0 v1 v4 v6 v10 v16 v18 = nodeArr (R := 10000) v0 v4 v1 v6 v10 v16 v18 := by
  funext i
  obtain ⟨p, q, rfl⟩ : ∃ (p : Fin 10000) (q : Fin 8), i = ix2 p q := ⟨i 0, i 1, eq_ix2 i⟩
  rw [nodeArr_apply]
  unfold k1_pay1 nodeRow
  simp only [shapeCast_self]
  rw [addf_apply]
  refine congrArg₂ (· + ·) ?_ ((broadcastTo_1b_ab_apply _ _ p q).trans (shapeCast_a_1a_apply v18 _ 0 q))
  refine (Cert.Matmul.matmul_plain_apply none _ v16 p q).trans ?_
  refine Finset.sum_congr rfl fun h _ => ?_
  refine congrArg (· * v16 (ix2 h q)) ?_
  rw [maximumf_apply, addf_apply, addf_apply]
  refine congrArg₂ max (congrArg₂ (· + ·) (congrArg₂ (· + ·) ?_ ?_) ?_) rfl
  · exact Cert.Matmul.matmul_plain_apply none v0 v1 p h
  · exact Cert.Matmul.matmul_plain_apply none v4 v6 p h
  · exact (broadcastTo_1b_ab_apply _ _ p h).trans (shapeCast_a_1a_apply v10 _ 0 h)

end Cert.Gnn

end
-- ==== Proof.EdgeArray.lean ====
/-
  From blocks to arrays, for the edge region. Point `t` of the grid of 400 reads rows 8000 t … 8000 t + 7999 of the three
  3200000×8 inputs and the six weight and bias arrays whole, and writes the same rows of the result. Because the edge
  perceptron works row by row, what the point writes back is those rows of the perceptron of the WHOLE inputs; the 400
  row ranges tile the result, so after the region the result array is the perceptron of the arrays the region found.
-/
import proofs.«133456_j13786845020472_1_alg».proof.Proof.Gen.KernelIdeal.Frame
import proofs.«133456_j13786845020472_1_alg».proof.Proof.Blocks
import Idealize.ShloMosaic.Lib.Pipeline.Value

set_option maxRecDepth 16384

noncomputable section

namespace Cert.Gnn

open Cert.KernelIdeal Cert.KernelIdeal.Gen Cert.Mlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## The index maps, decided over the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-! ## Each input block as a piece of its array -/

/-- Input window 0 of the edge region: row `p` of point `t`'s block is row `8000 t + p` of the array. -/
theorem eblk0 (c : Dev nD) (t : Fin cfg0.N) (p : Fin 8000) (k : Fin 8) (r : Fin 3200000) (hr : r.val = t.val * 8000 + p.val) :
    (iblk0 V c 0 t : FVec Ideal S8000x8 .f32) (ix2 p k) = (V c main_v10 : FVec Ideal S3200000x8 .f32) (ix2 r k) := by
  obtain ⟨e0, e1⟩ := idx0_0 t
  unfold iblk0
  rw [View.read_apply]
  refine congrArg (V c main_v10 : FVec Ideal S3200000x8 .f32) ?_
  funext a
  apply Fin.ext
  match a with
  | ⟨0, _⟩ => show win0_0.index t (0 : Fin 2) * 8000 + 1 * p.val = r.val; rw [e0, hr]; omega
  | ⟨1, _⟩ => show win0_0.index t (1 : Fin 2) * 8 + 1 * k.val = k.val; rw [e1]; omega

/-- Input window 1 of the edge region: row `p` of point `t`'s block is row `8000 t + p` of the array. -/
theorem eblk1 (c : Dev nD) (t : Fin cfg0.N) (p : Fin 8000) (k : Fin 8) (r : Fin 3200000) (hr : r.val = t.val * 8000 + p.val) :
    (iblk0 V c 1 t : FVec Ideal S8000x8 .f32) (ix2 p k) = (V c main_v17 : FVec Ideal S3200000x8 .f32) (ix2 r k) := by
  obtain ⟨e0, e1⟩ := idx0_1 t
  unfold iblk0
  rw [View.read_apply]
  refine congrArg (V c main_v17 : FVec Ideal S3200000x8 .f32) ?_
  funext a
  apply Fin.ext
  match a with
  | ⟨0, _⟩ => show win0_1.index t (0 : Fin 2) * 8000 + 1 * p.val = r.val; rw [e0, hr]; omega
  | ⟨1, _⟩ => show win0_1.index t (1 : Fin 2) * 8 + 1 * k.val = k.val; rw [e1]; omega

/-- Input window 2 of the edge region: row `p` of point `t`'s block is row `8000 t + p` of the array. -/
theorem eblk2 (c : Dev nD) (t : Fin cfg0.N) (p : Fin 8000) (k : Fin 8) (r : Fin 3200000) (hr : r.val = t.val * 8000 + p.val) :
    (iblk0 V c 2 t : FVec Ideal S8000x8 .f32) (ix2 p k) = (V c main_arg2 : FVec Ideal S3200000x8 .f32) (ix2 r k) := by
  obtain ⟨e0, e1⟩ := idx0_2 t
  unfold iblk0
  rw [View.read_apply]
  refine congrArg (V c main_arg2 : FVec Ideal S3200000x8 .f32) ?_
  funext a
  apply Fin.ext
  match a with
  | ⟨0, _⟩ => show win0_2.index t (0 : Fin 2) * 8000 + 1 * p.val = r.val; rw [e0, hr]; omega
  | ⟨1, _⟩ => show win0_2.index t (1 : Fin 2) * 8 + 1 * k.val = k.val; rw [e1]; omega

/-- Window 3 of region 0 is its whole array at every point. -/
theorem eblk3 (c : Dev nD) (t : Fin cfg0.N) : (iblk0 V c 3 t : FVec Ideal S8x32 .f32) = (V c main_v18 : FVec Ideal S8x32 .f32) := by
  obtain ⟨e0, e1⟩ := idx0_3 t
  funext y
  unfold iblk0
  rw [View.read_apply]
  refine congrArg (V c main_v18 : FVec Ideal S8x32 .f32) ?_
  funext a
  apply Fin.ext
  match a with
  | ⟨0, _⟩ => show win0_3.index t (0 : Fin 2) * 8 + 1 * (y 0).val = (y 0).val; rw [e0]; omega
  | ⟨1, _⟩ => show win0_3.index t (1 : Fin 2) * 32 + 1 * (y 1).val = (y 1).val; rw [e1]; omega

/-- Window 4 of region 0 is its whole array at every point. -/
theorem eblk4 (c : Dev nD) (t : Fin cfg0.N) : (iblk0 V c 4 t : FVec Ideal S8x32 .f32) = (V c main_v19 : FVec Ideal S8x32 .f32) := by
  obtain ⟨e0, e1⟩ := idx0_4 t
  funext y
  unfold iblk0
  rw [View.read_apply]
  refine congrArg (V c main_v19 : FVec Ideal S8x32 .f32) ?_
  funext a
  apply Fin.ext
  match a with
  | ⟨0, _⟩ => show win0_4.index t (0 : Fin 2) * 8 + 1 * (y 0).val = (y 0).val; rw [e0]; omega
  | ⟨1, _⟩ => show win0_4.index t (1 : Fin 2) * 32 + 1 * (y 1).val = (y 1).val; rw [e1]; omega

/-- Window 5 of region 0 is its whole array at every point. -/
theorem eblk5 (c : Dev nD) (t : Fin cfg0.N) : (iblk0 V c 5 t : FVec Ideal S8x32 .f32) = (V c main_v20 : FVec Ideal S8x32 .f32) := by
  obtain ⟨e0, e1⟩ := idx0_5 t
  funext y
  unfold iblk0
  rw [View.read_apply]
  refine congrArg (V c main_v20 : FVec Ideal S8x32 .f32) ?_
  funext a
  apply Fin.ext
  match a with
  | ⟨0, _⟩ => show win0_5.index t (0 : Fin 2) * 8 + 1 * (y 0).val = (y 0).val; rw [e0]; omega
  | ⟨1, _⟩ => show win0_5.index t (1 : Fin 2) * 32 + 1 * (y 1).val = (y 1).val; rw [e1]; omega

/-- Window 6 of region 0 is its whole array at every point. -/
theorem eblk6 (c : Dev nD) (t : Fin cfg0.N) : (iblk0 V c 6 t : FVec Ideal S32 .f32) = (V c main_arg4 : FVec Ideal S32 .f32) := by
  have e0 := idx0_6 t
  funext y
  unfold iblk0
  rw [View.read_apply]
  refine congrArg (V c main_arg4 : FVec Ideal S32 .f32) ?_
  funext a
  apply Fin.ext
  match a with
  | ⟨0, _⟩ => show win0_6.index t (0 : Fin 1) * 32 + 1 * (y 0).val = (y 0).val; rw [e0]; omega

/-- Window 7 of region 0 is its whole array at every point. -/
theorem eblk7 (c : Dev nD) (t : Fin cfg0.N) : (iblk0 V c 7 t : FVec Ideal S32x8 .f32) = (V c main_arg5 : FVec Ideal S32x8 .f32) := by
  obtain ⟨e0, e1⟩ := idx0_7 t
  funext y
  unfold iblk0
  rw [View.read_apply]
  refine congrArg (V c main_arg5 : FVec Ideal S32x8 .f32) ?_
  funext a
  apply Fin.ext
  match a with
  | ⟨0, _⟩ => show win0_7.index t (0 : Fin 2) * 32 + 1 * (y 0).val = (y 0).val; rw [e0]; omega
  | ⟨1, _⟩ => show win0_7.index t (1 : Fin 2) * 8 + 1 * (y 1).val = (y 1).val; rw [e1]; omega

/-- Window 8 of region 0 is its whole array at every point. -/
theorem eblk8 (c : Dev nD) (t : Fin cfg0.N) : (iblk0 V c 8 t : FVec Ideal S8 .f32) = (V c main_arg6 : FVec Ideal S8 .f32) := by
  have e0 := idx0_8 t
  funext y
  unfold iblk0
  rw [View.read_apply]
  refine congrArg (V c main_arg6 : FVec Ideal S8 .f32) ?_
  funext a
  apply Fin.ext
  match a with
  | ⟨0, _⟩ => show win0_8.index t (0 : Fin 1) * 8 + 1 * (y 0).val = (y 0).val; rw [e0]; omega

/-! ## The result array -/

/-- The edge perceptron of the arrays the region finds. -/
def edgeOut (c : Dev nD) : FVec Ideal S3200000x8 .f32 :=
  edgeArr (R := 3200000) (V c main_v10) (V c main_v17) (V c main_arg2) (V c main_v18) (V c main_v19) (V c main_v20)
    (V c main_arg4) (V c main_arg5) (V c main_arg6)

/-- WHAT POINT `t` WRITES BACK is rows 8000 t … of `edgeOut`. -/
theorem eflushed (c : Dev nD) (t : Fin cfg0.N) :
    (dat0 V c).flushed 9 t = ((cfg0.win 9).blk t).view.read (Elt Ideal) (edgeOut V c) := by
  show (cfg0.win 9).cut (grid0.coords t) ((dat0 V c).after 9 t) = _
  rw [after0_9]
  unfold out0_9
  rw [View.canon_unit_zero zero2]
  simp only [View.ld_unit_zero (S := S8000x8) zero2, View.ld_unit_zero (S := S8x32) zero2, View.ld_unit_zero (S := S32) zero1,
    View.ld_unit_zero (S := S32x8) zero2, View.ld_unit_zero (S := S8) zero1]
  rw [edge_payload, eblk3 V c t, eblk4 V c t, eblk5 V c t, eblk6 V c t, eblk7 V c t, eblk8 V c t]
  funext j
  obtain ⟨p, q, rfl⟩ : ∃ (p : Fin 8000) (q : Fin 8), j = ix2 p q := ⟨j 0, j 1, eq_ix2 j⟩
  have ht : t.val < 400 := by have h := t.isLt; have e : cfg0.N = 400 := N_0; omega
  have hr : t.val * 8000 + p.val < 3200000 := by have := p.isLt; omega
  obtain ⟨e0, e1⟩ := idx0_9 t
  have he : ((cfg0.win 9).blk t).view.emb (ix2 p q) = ix2 (⟨t.val * 8000 + p.val, hr⟩ : Fin 3200000) q := by
    funext a
    apply Fin.ext
    match a with
    | ⟨0, _⟩ => show win0_9.index t (0 : Fin 2) * 8000 + 1 * p.val = t.val * 8000 + p.val; rw [e0]; omega
    | ⟨1, _⟩ => show win0_9.index t (1 : Fin 2) * 8 + 1 * q.val = q.val; rw [e1]; omega
  show edgeArr (R := 8000) (iblk0 V c 0 t) (iblk0 V c 1 t) (iblk0 V c 2 t) (V c main_v18) (V c main_v19) (V c main_v20)
      (V c main_arg4) (V c main_arg5) (V c main_arg6) (ix2 p q) = edgeOut V c (((cfg0.win 9).blk t).view.emb (ix2 p q))
  rw [he]
  unfold edgeOut
  rw [edgeArr_apply, edgeArr_apply]
  exact edgeRow_congr (fun k => eblk0 V c t p k _ rfl) (fun k => eblk1 V c t p k _ rfl) (fun k => eblk2 V c t p k _ rfl)

/-- An index of the result is in point `t`'s block iff its row is in the point's row range. -/
theorem emem (t : Fin cfg0.N) (i : S3200000x8.Idx) :
    i ∈ ((cfg0.win 9).blk t).view.set ↔ ∀ a : Fin 2, win0_9.index t a * S8000x8.size a ≤ (i a).val ∧ (i a).val < win0_9.index t a * S8000x8.size a + S8000x8.size a := by
  show i ∈ ((View.whole main_v21).slice (win0_9.rect t)).set ↔ _
  rw [View.set_slice_whole, Rect.mem_set_unit]
  exact Iff.rfl

/-- AFTER THE REGION the result array is the edge perceptron of the arrays the region found. -/
theorem edge_final (c : Dev nD) : (dat0 V c).arrAt 9 cfg0.N = edgeOut V c :=
  (dat0 V c).arrAt_eq_of_cover 9 (edgeOut V c) (fun t _ => eflushed V c t) fun i => by
    have hi0 : (i 0).val < 3200000 := (i 0).isLt
    have hi1 : (i 1).val < 8 := (i 1).isLt
    refine ⟨⟨(i 0).val / 8000, by have e : cfg0.N = 400 := N_0; omega⟩, flush0_9 _, ?_⟩
    rw [emem]
    obtain ⟨e0, e1⟩ := idx0_9 ⟨(i 0).val / 8000, by have e : cfg0.N = 400 := N_0; omega⟩
    intro a
    match a with
    | ⟨0, _⟩ =>
      show win0_9.index _ (0 : Fin 2) * 8000 ≤ (i 0).val ∧ (i 0).val < win0_9.index _ (0 : Fin 2) * 8000 + 8000
      rw [e0]; show (i 0).val / 8000 * 8000 ≤ (i 0).val ∧ (i 0).val < (i 0).val / 8000 * 8000 + 8000; omega
    | ⟨1, _⟩ =>
      show win0_9.index _ (1 : Fin 2) * 8 ≤ (i 1).val ∧ (i 1).val < win0_9.index _ (1 : Fin 2) * 8 + 8
      rw [e1]; omega

end Cert.Gnn

end
-- ==== Proof.NodeArray.lean ====
/-
  From blocks to arrays, for the node region. Point `t` of the grid of 10 reads rows 10000 t … 10000 t + 9999 of the two
  100000×8 inputs and the five weight and bias arrays whole, and writes the same rows of the result. The node perceptron
  works row by row, so what the point writes back is those rows of the perceptron of the WHOLE inputs; the 10 row
  ranges tile the result, so after the region the result array is the perceptron of the arrays the region found.
-/
import proofs.«133456_j13786845020472_1_alg».proof.Proof.Gen.KernelIdeal.Frame
import proofs.«133456_j13786845020472_1_alg».proof.Proof.Blocks
import Idealize.ShloMosaic.Lib.Pipeline.Value

set_option maxRecDepth 16384

noncomputable section

namespace Cert.Gnn

open Cert.KernelIdeal Cert.KernelIdeal.Gen Cert.Mlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem nzero2 : (![0, 0] : Fin 2 → Nat) = fun _ => 0 := funext fun a => by fin_cases a <;> rfl
theorem nzero1 : (![0] : Fin 1 → Nat) = fun _ => 0 := funext fun a => by fin_cases a; rfl

/-! ## The index maps, decided over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-! ## Each input block as a piece of its array -/

/-- Input window 0 of the node region: row `p` of point `t`'s block is row `10000 t + p` of the array. -/
theorem nblk0 (c : Dev nD) (t : Fin cfg1.N) (p : Fin 10000) (k : Fin 8) (r : Fin 100000) (hr : r.val = t.val * 10000 + p.val) :
    (iblk1 V c 0 t : FVec Ideal S10000x8 .f32) (ix2 p k) = (V c main_arg0 : FVec Ideal S100000x8 .f32) (ix2 r k) := by
  obtain ⟨e0, e1⟩ := idx1_0 t
  unfold iblk1
  rw [View.read_apply]
  refine congrArg (V c main_arg0 : FVec Ideal S100000x8 .f32) ?_
  funext a
  apply Fin.ext
  match a with
  | ⟨0, _⟩ => show win1_0.index t (0 : Fin 2) * 10000 + 1 * p.val = r.val; rw [e0, hr]; omega
  | ⟨1, _⟩ => show win1_0.index t (1 : Fin 2) * 8 + 1 * k.val = k.val; rw [e1]; omega

/-- Input window 1 of the node region: row `p` of point `t`'s block is row `10000 t + p` of the array. -/
theorem nblk1 (c : Dev nD) (t : Fin cfg1.N) (p : Fin 10000) (k : Fin 8) (r : Fin 100000) (hr : r.val = t.val * 10000 + p.val) :
    (iblk1 V c 1 t : FVec Ideal S10000x8 .f32) (ix2 p k) = (V c main_v33 : FVec Ideal S100000x8 .f32) (ix2 r k) := by
  obtain ⟨e0, e1⟩ := idx1_1 t
  unfold iblk1
  rw [View.read_apply]
  refine congrArg (V c main_v33 : FVec Ideal S100000x8 .f32) ?_
  funext a
  apply Fin.ext
  match a with
  | ⟨0, _⟩ => show win1_1.index t (0 : Fin 2) * 10000 + 1 * p.val = r.val; rw [e0, hr]; omega
  | ⟨1, _⟩ => show win1_1.index t (1 : Fin 2) * 8 + 1 * k.val = k.val; rw [e1]; omega

/-- Window 2 of region 1 is its whole array at every point. -/
theorem nblk2 (c : Dev nD) (t : Fin cfg1.N) : (iblk1 V c 2 t : FVec Ideal S8x32 .f32) = (V c main_v34 : FVec Ideal S8x32 .f32) := by
  obtain ⟨e0, e1⟩ := idx1_2 t
  funext y
  unfold iblk1
  rw [View.read_apply]
  refine congrArg (V c main_v34 : FVec Ideal S8x32 .f32) ?_
  funext a
  apply Fin.ext
  match a with
  | ⟨0, _⟩ => show win1_2.index t (0 : Fin 2) * 8 + 1 * (y 0).val = (y 0).val; rw [e0]; omega
  | ⟨1, _⟩ => show win1_2.index t (1 : Fin 2) * 32 + 1 * (y 1).val = (y 1).val; rw [e1]; omega

/-- Window 3 of region 1 is its whole array at every point. -/
theorem nblk3 (c : Dev nD) (t : Fin cfg1.N) : (iblk1 V c 3 t : FVec Ideal S8x32 .f32) = (V c main_v35 : FVec Ideal S8x32 .f32) := by
  obtain ⟨e0, e1⟩ := idx1_3 t
  funext y
  unfold iblk1
  rw [View.read_apply]
  refine congrArg (V c main_v35 : FVec Ideal S8x32 .f32) ?_
  funext a
  apply Fin.ext
  match a with
  | ⟨0, _⟩ => show win1_3.index t (0 : Fin 2) * 8 + 1 * (y 0).val = (y 0).val; rw [e0]; omega
  | ⟨1, _⟩ => show win1_3.index t (1 : Fin 2) * 32 + 1 * (y 1).val = (y 1).val; rw [e1]; omega

/-- Window 4 of region 1 is its whole array at every point. -/
theorem nblk4 (c : Dev nD) (t : Fin cfg1.N) : (iblk1 V c 4 t : FVec Ideal S32 .f32) = (V c main_arg8 : FVec Ideal S32 .f32) := by
  have e0 := idx1_4 t
  funext y
  unfold iblk1
  rw [View.read_apply]
  refine congrArg (V c main_arg8 : FVec Ideal S32 .f32) ?_
  funext a
  apply Fin.ext
  match a with
  | ⟨0, _⟩ => show win1_4.index t (0 : Fin 1) * 32 + 1 * (y 0).val = (y 0).val; rw [e0]; omega

/-- Window 5 of region 1 is its whole array at every point. -/
theorem nblk5 (c : Dev nD) (t : Fin cfg1.N) : (iblk1 V c 5 t : FVec Ideal S32x8 .f32) = (V c main_arg9 : FVec Ideal S32x8 .f32) := by
  obtain ⟨e0, e1⟩ := idx1_5 t
  funext y
  unfold iblk1
  rw [View.read_apply]
  refine congrArg (V c main_arg9 : FVec Ideal S32x8 .f32) ?_
  funext a
  apply Fin.ext
  match a with
  | ⟨0, _⟩ => show win1_5.index t (0 : Fin 2) * 32 + 1 * (y 0).val = (y 0).val; rw [e0]; omega
  | ⟨1, _⟩ => show win1_5.index t (1 : Fin 2) * 8 + 1 * (y 1).val = (y 1).val; rw [e1]; omega

/-- Window 6 of region 1 is its whole array at every point. -/
theorem nblk6 (c : Dev nD) (t : Fin cfg1.N) : (iblk1 V c 6 t : FVec Ideal S8 .f32) = (V c main_arg10 : FVec Ideal S8 .f32) := by
  have e0 := idx1_6 t
  funext y
  unfold iblk1
  rw [View.read_apply]
  refine congrArg (V c main_arg10 : FVec Ideal S8 .f32) ?_
  funext a
  apply Fin.ext
  match a with
  | ⟨0, _⟩ => show win1_6.index t (0 : Fin 1) * 8 + 1 * (y 0).val = (y 0).val; rw [e0]; omega

/-! ## The result array -/

/-- The node perceptron of the arrays the region finds. -/
def nodeOut (c : Dev nD) : FVec Ideal S100000x8 .f32 :=
  nodeArr (R := 100000) (V c main_arg0) (V c main_v33) (V c main_v34) (V c main_v35) (V c main_arg8) (V c main_arg9) (V c main_arg10)

/-- WHAT POINT `t` WRITES BACK is rows 10000 t … of `nodeOut`. -/
theorem nflushed (c : Dev nD) (t : Fin cfg1.N) :
    (dat1 V c).flushed 7 t = ((cfg1.win 7).blk t).view.read (Elt Ideal) (nodeOut V c) := by
  show (cfg1.win 7).cut (grid1.coords t) ((dat1 V c).after 7 t) = _
  rw [after1_7]
  unfold out1_7
  rw [View.canon_unit_zero nzero2]
  simp only [View.ld_unit_zero (S := S10000x8) nzero2, View.ld_unit_zero (S := S8x32) nzero2, View.ld_unit_zero (S := S32) nzero1,
    View.ld_unit_zero (S := S32x8) nzero2, View.ld_unit_zero (S := S8) nzero1]
  rw [node_payload, nblk2 V c t, nblk3 V c t, nblk4 V c t, nblk5 V c t, nblk6 V c t]
  funext j
  obtain ⟨p, q, rfl⟩ : ∃ (p : Fin 10000) (q : Fin 8), j = ix2 p q := ⟨j 0, j 1, eq_ix2 j⟩
  have ht : t.val < 10 := by have h := t.isLt; have e : cfg1.N = 10 := N_1; omega
  have hr : t.val * 10000 + p.val < 100000 := by have := p.isLt; omega
  obtain ⟨e0, e1⟩ := idx1_7 t
  have he : ((cfg1.win 7).blk t).view.emb (ix2 p q) = ix2 (⟨t.val * 10000 + p.val, hr⟩ : Fin 100000) q := by
    funext a
    apply Fin.ext
    match a with
    | ⟨0, _⟩ => show win1_7.index t (0 : Fin 2) * 10000 + 1 * p.val = t.val * 10000 + p.val; rw [e0]; omega
    | ⟨1, _⟩ => show win1_7.index t (1 : Fin 2) * 8 + 1 * q.val = q.val; rw [e1]; omega
  show nodeArr (R := 10000) (iblk1 V c 0 t) (iblk1 V c 1 t) (V c main_v34) (V c main_v35)
      (V c main_arg8) (V c main_arg9) (V c main_arg10) (ix2 p q) = nodeOut V c (((cfg1.win 7).blk t).view.emb (ix2 p q))
  rw [he]
  unfold nodeOut
  rw [nodeArr_apply, nodeArr_apply]
  exact nodeRow_congr (fun k => nblk0 V c t p k _ rfl) (fun k => nblk1 V c t p k _ rfl)

/-- An index of the result is in point `t`'s block iff its row is in the point's row range. -/
theorem nmem (t : Fin cfg1.N) (i : S100000x8.Idx) :
    i ∈ ((cfg1.win 7).blk t).view.set ↔ ∀ a : Fin 2, win1_7.index t a * S10000x8.size a ≤ (i a).val ∧ (i a).val < win1_7.index t a * S10000x8.size a + S10000x8.size a := by
  show i ∈ ((View.whole main_v36).slice (win1_7.rect t)).set ↔ _
  rw [View.set_slice_whole, Rect.mem_set_unit]
  exact Iff.rfl

/-- AFTER THE REGION the result array is the node perceptron of the arrays the region found. -/
theorem node_final (c : Dev nD) : (dat1 V c).arrAt 7 cfg1.N = nodeOut V c :=
  (dat1 V c).arrAt_eq_of_cover 7 (nodeOut V c) (fun t _ => nflushed V c t) fun i => by
    have hi0 : (i 0).val < 100000 := (i 0).isLt
    have hi1 : (i 1).val < 8 := (i 1).isLt
    refine ⟨⟨(i 0).val / 10000, by have e : cfg1.N = 10 := N_1; omega⟩, flush1_7 _, ?_⟩
    rw [nmem]
    obtain ⟨e0, e1⟩ := idx1_7 ⟨(i 0).val / 10000, by have e : cfg1.N = 10 := N_1; omega⟩
    intro a
    match a with
    | ⟨0, _⟩ =>
      show win1_7.index _ (0 : Fin 2) * 10000 ≤ (i 0).val ∧ (i 0).val < win1_7.index _ (0 : Fin 2) * 10000 + 10000
      rw [e0]; show (i 0).val / 10000 * 10000 ≤ (i 0).val ∧ (i 0).val < (i 0).val / 10000 * 10000 + 10000; omega
    | ⟨1, _⟩ =>
      show win1_7.index _ (1 : Fin 2) * 8 ≤ (i 1).val ∧ (i 1).val < win1_7.index _ (1 : Fin 2) * 8 + 8
      rw [e1]; omega

end Cert.Gnn

end
-- ==== Proof.KernelValue.lean ====
/-
  The kernel program's two results as the perceptrons of what each region found. The program is: host operations (the two
  gathers of node rows, the three 8-row blocks of the first edge weight), the edge region, host operations (the
  scatter-add of the edge embeddings and of ones over the source nodes, their quotient, the two blocks of the first
  node weight), the node region. The edge result is written by the edge region only and touched by nothing after it;
  the node result is written by the node region.
-/
import proofs.«133456_j13786845020472_1_alg».proof.Proof.KernelRun
import proofs.«133456_j13786845020472_1_alg».proof.Proof.EdgeArray
import proofs.«133456_j13786845020472_1_alg».proof.Proof.NodeArray

set_option maxRecDepth 16384

noncomputable section

namespace Cert.Gnn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the end the edge result holds what the edge region left: no later operation and no later region writes it. -/
theorem W4_v21 (c : Dev nD) : W4 m ρ c (Proc.devRef .tc main_v21) = edgeOut (V1 m ρ) c :=
  calc W4 m ρ c (Proc.devRef .tc main_v21)
    _ = W3 m ρ c (Proc.devRef .tc main_v21) := W4_of_ne m ρ c main_v21 (by decide)
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 9 cfg0.N := W2_arr m ρ c 9
    _ = edgeOut (V1 m ρ) c := edge_final (V1 m ρ) c

/-- At the end the node result holds what the node region left. -/
theorem W4_v36 (c : Dev nD) : W4 m ρ c (Proc.devRef .tc main_v36) = nodeOut (V3 m ρ) c :=
  (W4_arr m ρ c 7).trans (node_final (V3 m ρ) c)

/-- What the edge region leaves in its result, read at the node region's entry. -/
theorem W2_v21 (c : Dev nD) : W2 m ρ c (Proc.devRef .tc main_v21) = edgeOut (V1 m ρ) c :=
  (W2_arr m ρ c 9).trans (edge_final (V1 m ρ) c)

/-- THE KERNEL PROGRAM'S RUN, its results named: the edge perceptron of what the first host stretch prepared, and the node
    perceptron of what the second prepared. -/
theorem run_values : θ_run defs (onTc (τ := τ) (main (F := Ideal))) ⟨m, fun _ => 0, ρ⟩ (fun r => ∀ c : Dev nD,
      r.2.mem ((c.tc : Thread nD τ).loc main_v21) = edgeOut (V1 m ρ) c
      ∧ r.2.mem ((c.tc : Thread nD τ).loc main_v36) = nodeOut (V3 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W4_v21 m ρ c), (h c).2.1.trans (W4_v36 m ρ c), (h c).2.2⟩)
    (Cert.KernelIdeal.Named.run_named m ρ)

end Cert.Gnn

end
-- ==== Proof.RefValue.lean ====
/-
  The reference's two results as the perceptrons. Its first result is the edge perceptron of the two gathered row arrays
  and the edge features, with the three 8-row blocks of the first edge weight; its second the node perceptron of the
  node features and the mean message, with the two 8-row blocks of the first node weight.
-/
import proofs.«133456_j13786845020472_1_alg».proof.Proof.Gen.ReferenceIdeal.Read
import proofs.«133456_j13786845020472_1_alg».proof.Proof.Mlp

noncomputable section

namespace Cert.Gnn.Ref

open Cert.ReferenceIdeal Cert.ReferenceIdeal.Gen Cert.ReferenceIdeal.Read Cert.Mlp
open Idealize.ShloMosaic Idealize.ShloMosaic.TcCoe

/-- The three 8-row blocks of a 24×32 matrix and the two of a 16×32 one are cuts. -/
theorem cut24_0 : (⟨2, ![24, 32]⟩ : Shape).Slices ![0, 0] ⟨2, ![8, 32]⟩ := by decide
theorem cut24_8 : (⟨2, ![24, 32]⟩ : Shape).Slices ![8, 0] ⟨2, ![8, 32]⟩ := by decide
theorem cut24_16 : (⟨2, ![24, 32]⟩ : Shape).Slices ![16, 0] ⟨2, ![8, 32]⟩ := by decide
theorem cut16_0 : (⟨2, ![16, 32]⟩ : Shape).Slices ![0, 0] ⟨2, ![8, 32]⟩ := by decide
theorem cut16_8 : (⟨2, ![16, 32]⟩ : Shape).Slices ![8, 0] ⟨2, ![8, 32]⟩ := by decide

/-- The reference's edge embedding is the edge perceptron of the gathered rows and the edge features. -/
theorem edge_val (x0 : FVec Ideal S100000x8 .f32) (x1 : (⟨S2x3200000, .i32⟩ : BufTy).Contents (Elt Ideal)) (x2 : FVec Ideal S3200000x8 .f32)
    (x3 : FVec Ideal S24x32 .f32) (x4 : FVec Ideal S32 .f32) (x5 : FVec Ideal S32x8 .f32) (x6 : FVec Ideal S8 .f32) :
    val_main_v27 (F := Ideal) x0 x1 x2 x3 x4 x5 x6
      = edgeArr (R := 3200000) (val_main_v10 (F := Ideal) x0 x1) (val_main_v17 (F := Ideal) x0 x1) x2
          (extractStridedSlice ⟨2, ![8, 32]⟩ ![0, 0] x3 cut24_0) (extractStridedSlice ⟨2, ![8, 32]⟩ ![8, 0] x3 cut24_8)
          (extractStridedSlice ⟨2, ![8, 32]⟩ ![16, 0] x3 cut24_16) x4 x5 x6 := by
  unfold val_main_v27 val_main_v24 val_main_v23 val_main_v22 val_main_v19 val_main_v18 val_main_v21 val_main_v20 val_main_v26
    val_main_v25 val_main_call0_v0 val_main_call0_cst
  exact ref_edge (R := 3200000) (val_main_v10 (F := Ideal) x0 x1) (val_main_v17 (F := Ideal) x0 x1) x2 x3 x4 x5 x6 _ _ _ _ _ _
    cut24_0 cut24_8 cut24_16

/-- The reference's node embedding is the node perceptron of the node features and the mean message. -/
theorem node_val (x0 : FVec Ideal S100000x8 .f32) (x1 : (⟨S2x3200000, .i32⟩ : BufTy).Contents (Elt Ideal)) (x2 : FVec Ideal S3200000x8 .f32)
    (x3 : FVec Ideal S24x32 .f32) (x4 : FVec Ideal S32 .f32) (x5 : FVec Ideal S32x8 .f32) (x6 : FVec Ideal S8 .f32)
    (x7 : FVec Ideal S16x32 .f32) (x8 : FVec Ideal S32 .f32) (x9 : FVec Ideal S32x8 .f32) (x10 : FVec Ideal S8 .f32) :
    val_main_v49 (F := Ideal) x0 x1 x2 x3 x4 x5 x6 x7 x8 x9 x10
      = nodeArr (R := 100000) x0 (val_main_v39 (F := Ideal) x0 x1 x2 x3 x4 x5 x6)
          (extractStridedSlice ⟨2, ![8, 32]⟩ ![0, 0] x7 cut16_0) (extractStridedSlice ⟨2, ![8, 32]⟩ ![8, 0] x7 cut16_8) x8 x9 x10 := by
  unfold val_main_v49 val_main_v46 val_main_v45 val_main_v44 val_main_v41 val_main_v40 val_main_v43 val_main_v42 val_main_v48
    val_main_v47 val_main_call1_v0 val_main_call1_cst
  exact ref_node (R := 100000) x0 (val_main_v39 (F := Ideal) x0 x1 x2 x3 x4 x5 x6) x7 x8 x9 x10 _ _ _ _ _ _ cut16_0 cut16_8

end Cert.Gnn.Ref

end
-- ==== Proof.Bridge.lean ====
/-
  The kernel program's results are the reference's. What each region finds in its operand arrays is, operation for
  operation, what the reference computes at the same place: the gathers of the rows of x at the (wrapped) source and
  target indices, the blocks of the first weights, and — for the node region — the quotient of the scatter-added edge
  embeddings by the clamped scatter-added counts, taken over the edge region's result. With the two perceptron
  identities this makes each result of the kernel program the reference's term of the same arguments.
-/
import proofs.«133456_j13786845020472_1_alg».proof.Proof.KernelValue
import proofs.«133456_j13786845020472_1_alg».proof.Proof.RefValue

set_option maxRecDepth 16384

noncomputable section

namespace Cert.Gnn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the edge region finds -/

theorem V1_v10 (c : Dev nD) : V1 m ρ c main_v10 = Cert.ReferenceIdeal.Read.val_main_v10 (F := Ideal) (m ((c.tc : Thread nD τ).loc main_arg0)) (m ((c.tc : Thread nD τ).loc main_arg1)) := by
  show StableHlo.after hostOps0 (W0 m ρ c) (Proc.devRef .tc main_v10) = _
  after_results_simp <;> rfl

theorem V1_v17 (c : Dev nD) : V1 m ρ c main_v17 = Cert.ReferenceIdeal.Read.val_main_v17 (F := Ideal) (m ((c.tc : Thread nD τ).loc main_arg0)) (m ((c.tc : Thread nD τ).loc main_arg1)) := by
  show StableHlo.after hostOps0 (W0 m ρ c) (Proc.devRef .tc main_v17) = _
  after_results_simp <;> rfl

theorem V1_arg2 (c : Dev nD) : V1 m ρ c main_arg2 = m ((c.tc : Thread nD τ).loc main_arg2) := by
  show StableHlo.after hostOps0 (W0 m ρ c) (Proc.devRef .tc main_arg2) = _
  after_results_simp <;> rfl

theorem V1_v18 (c : Dev nD) : V1 m ρ c main_v18 = extractStridedSlice ⟨2, ![8, 32]⟩ ![0, 0] (m ((c.tc : Thread nD τ).loc main_arg3)) Ref.cut24_0 := by
  show StableHlo.after hostOps0 (W0 m ρ c) (Proc.devRef .tc main_v18) = _
  after_results_simp <;> rfl

theorem V1_v19 (c : Dev nD) : V1 m ρ c main_v19 = extractStridedSlice ⟨2, ![8, 32]⟩ ![8, 0] (m ((c.tc : Thread nD τ).loc main_arg3)) Ref.cut24_8 := by
  show StableHlo.after hostOps0 (W0 m ρ c) (Proc.devRef .tc main_v19) = _
  after_results_simp <;> rfl

theorem V1_v20 (c : Dev nD) : V1 m ρ c main_v20 = extractStridedSlice ⟨2, ![8, 32]⟩ ![16, 0] (m ((c.tc : Thread nD τ).loc main_arg3)) Ref.cut24_16 := by
  show StableHlo.after hostOps0 (W0 m ρ c) (Proc.devRef .tc main_v20) = _
  after_results_simp <;> rfl

theorem V1_arg4 (c : Dev nD) : V1 m ρ c main_arg4 = m ((c.tc : Thread nD τ).loc main_arg4) := by
  show StableHlo.after hostOps0 (W0 m ρ c) (Proc.devRef .tc main_arg4) = _
  after_results_simp <;> rfl

theorem V1_arg5 (c : Dev nD) : V1 m ρ c main_arg5 = m ((c.tc : Thread nD τ).loc main_arg5) := by
  show StableHlo.after hostOps0 (W0 m ρ c) (Proc.devRef .tc main_arg5) = _
  after_results_simp <;> rfl

theorem V1_arg6 (c : Dev nD) : V1 m ρ c main_arg6 = m ((c.tc : Thread nD τ).loc main_arg6) := by
  show StableHlo.after hostOps0 (W0 m ρ c) (Proc.devRef .tc main_arg6) = _
  after_results_simp <;> rfl

/-- THE EDGE RESULT of the kernel program is the reference's edge embedding of the same arguments. -/
theorem edge_bridge (c : Dev nD) : edgeOut (V1 m ρ) c = Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold edgeOut
  rw [V1_v10 m ρ c, V1_v17 m ρ c, V1_arg2 m ρ c, V1_v18 m ρ c, V1_v19 m ρ c, V1_v20 m ρ c, V1_arg4 m ρ c, V1_arg5 m ρ c, V1_arg6 m ρ c]
  exact (Ref.edge_val _ _ _ _ _ _ _).symm

/-! ## What the node region finds -/

theorem W2_arg0 (c : Dev nD) : W2 m ρ c (Proc.devRef .tc main_arg0) = m ((c.tc : Thread nD τ).loc main_arg0) :=
  (W2_of_ne m ρ c main_arg0 (by decide)).trans (by
    show StableHlo.after hostOps0 (W0 m ρ c) (Proc.devRef .tc main_arg0) = _
    after_results_simp <;> rfl)

theorem W2_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results_simp <;> rfl)

theorem W2_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results_simp <;> rfl)

theorem W2_arg9 (c : Dev nD) : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results_simp <;> rfl)

theorem W2_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results_simp <;> rfl)

theorem W2_v1 (c : Dev nD) : W2 m ρ c (Proc.devRef .tc main_v1) = Cert.ReferenceIdeal.Read.val_main_v1 (F := Ideal) (m ((c.tc : Thread nD τ).loc main_arg1)) :=
  (W2_of_ne m ρ c main_v1 (by decide)).trans (by
    show StableHlo.after hostOps0 (W0 m ρ c) (Proc.devRef .tc main_v1) = _
    after_results_simp <;> rfl)

theorem V3_arg0 (c : Dev nD) : V3 m ρ c main_arg0 = m ((c.tc : Thread nD τ).loc main_arg0) := by
  show StableHlo.after hostOps1 (W2 m ρ c) (Proc.devRef .tc main_arg0) = _
  after_results_simp
  exact W2_arg0 m ρ c

theorem V3_arg8 (c : Dev nD) : V3 m ρ c main_arg8 = m ((c.tc : Thread nD τ).loc main_arg8) := by
  show StableHlo.after hostOps1 (W2 m ρ c) (Proc.devRef .tc main_arg8) = _
  after_results_simp
  exact W2_arg8 m ρ c

theorem V3_arg9 (c : Dev nD) : V3 m ρ c main_arg9 = m ((c.tc : Thread nD τ).loc main_arg9) := by
  show StableHlo.after hostOps1 (W2 m ρ c) (Proc.devRef .tc main_arg9) = _
  after_results_simp
  exact W2_arg9 m ρ c

theorem V3_arg10 (c : Dev nD) : V3 m ρ c main_arg10 = m ((c.tc : Thread nD τ).loc main_arg10) := by
  show StableHlo.after hostOps1 (W2 m ρ c) (Proc.devRef .tc main_arg10) = _
  after_results_simp
  exact W2_arg10 m ρ c

theorem V3_v34 (c : Dev nD) : V3 m ρ c main_v34 = extractStridedSlice ⟨2, ![8, 32]⟩ ![0, 0] (m ((c.tc : Thread nD τ).loc main_arg7)) Ref.cut16_0 := by
  show StableHlo.after hostOps1 (W2 m ρ c) (Proc.devRef .tc main_v34) = _
  after_results_simp
  rw [W2_arg7 m ρ c]

theorem V3_v35 (c : Dev nD) : V3 m ρ c main_v35 = extractStridedSlice ⟨2, ![8, 32]⟩ ![8, 0] (m ((c.tc : Thread nD τ).loc main_arg7)) Ref.cut16_8 := by
  show StableHlo.after hostOps1 (W2 m ρ c) (Proc.devRef .tc main_v35) = _
  after_results_simp
  rw [W2_arg7 m ρ c]

/-- The mean message the node region reads is the reference's, taken over the edge region's result. -/
theorem V3_v33 (c : Dev nD) : V3 m ρ c main_v33 = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W2 m ρ c) (Proc.devRef .tc main_v33) = _
  after_results_simp
  rw [W2_v21 m ρ c, edge_bridge m ρ c, W2_v1 m ρ c]
  rfl

/-- THE NODE RESULT of the kernel program is the reference's node embedding of the same arguments. -/
theorem node_bridge (c : Dev nD) : nodeOut (V3 m ρ) c = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold nodeOut
  rw [V3_arg0 m ρ c, V3_v33 m ρ c, V3_v34 m ρ c, V3_v35 m ρ c, V3_arg8 m ρ c, V3_arg9 m ρ c, V3_arg10 m ρ c]
  exact (Ref.node_val _ _ _ _ _ _ _ _ _ _ _).symm

end Cert.Gnn

end
-- ==== Proof.lean ====
/-
  Message passing on a graph, one layer: every edge (row, col) gets the embedding
      e = W2ᵀ·relu(W1ᵀ·[x[row], x[col], edge_attr] + b1) + b2,
  every node the mean of the embeddings of the edges leaving it (the scatter-added embeddings over the scatter-added
  count clamped at 1), and then its own embedding
      n = V2ᵀ·relu(V1ᵀ·[x, mean] + c1) + c2.
  The kernel program runs the two perceptrons as two pallas_calls over row blocks (8000 edges, 10000 nodes a block) and
  never joins their inputs: the 24×32 weight W1 is cut into three 8-row blocks, V1 into two, each input is multiplied by
  its own block and the products are added. The reference joins the inputs and multiplies once. Gathers, scatter-adds
  and the quotient are the same host operations in both programs.

  Over the extended reals the two programs compute the same arrays: at each (row, hidden unit) the reference's sum over
  the 24 (or 16) joined columns, cut into its runs of 8, is the kernel's sum of three (or two) partial products, which
  is a regrouping of a finite sum and holds for every extended real; so the precondition (finite inputs) is never used.
  The modules: the two perceptrons row by row and the reference's form of them (Mlp); what each kernel body stores
  (Blocks); each region's result array as the perceptron of the arrays it finds (EdgeArray, NodeArray); the program's
  run with its results named (KernelRun, KernelValue); the reference's results (RefValue); what each region finds, in
  the reference's terms (Bridge). The three frames are the generated ones, the reference's being its run with the
  results dropped; the idealization rewrote nothing, so `preserves` is `True`.
-/
import proofs.«133456_j13786845020472_1_alg».proof.Defs
import proofs.«133456_j13786845020472_1_alg».proof.Proof.Gen.Kernel
import proofs.«133456_j13786845020472_1_alg».proof.Proof.Gen.Kernel.Skeleton
import proofs.«133456_j13786845020472_1_alg».proof.Proof.Gen.Kernel.Launch
import proofs.«133456_j13786845020472_1_alg».proof.Proof.Gen.Kernel.Points
import proofs.«133456_j13786845020472_1_alg».proof.Proof.Gen.Kernel.Frame
import proofs.«133456_j13786845020472_1_alg».proof.Proof.Gen.KernelIdeal
import proofs.«133456_j13786845020472_1_alg».proof.Proof.Gen.KernelIdeal.Skeleton
import proofs.«133456_j13786845020472_1_alg».proof.Proof.Gen.KernelIdeal.Launch
import proofs.«133456_j13786845020472_1_alg».proof.Proof.Gen.KernelIdeal.Points
import proofs.«133456_j13786845020472_1_alg».proof.Proof.Gen.KernelIdeal.Frame
import proofs.«133456_j13786845020472_1_alg».proof.Proof.Gen.ReferenceIdeal
import proofs.«133456_j13786845020472_1_alg».proof.Proof.Gen.Pre_finite_inputs
import proofs.«133456_j13786845020472_1_alg».proof.Proof.Gen.ReferenceIdeal.Run
import proofs.«133456_j13786845020472_1_alg».proof.Proof.Gen.ReferenceIdeal.Read
import proofs.«133456_j13786845020472_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the edge embeddings and the node embeddings of the reference's two stage terms, taken at
    the kernel program's arguments: the kernel program by the two perceptron identities and the shared host
    operations, the reference by its own run, its arguments agreeing with the kernel program's. -/
theorem algebraic : Cert.algebraic_KernelIdeal_ReferenceIdeal := by
  intro m ρ m' ρ' _ hagree
  refine ⟨fun c => Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gnn.edge_bridge m ρ c), (h c).2.1.trans (Cert.Gnn.node_bridge m ρ c), (h c).2.2⟩)
      (Cert.Gnn.run_values m ρ)
  · refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    refine ⟨(h c).1.trans ((Cert.ReferenceIdeal.Read.val_main_v27_eq _ _ _ _ _ _ _).trans ?_),
      (h c).2.1.trans ((Cert.ReferenceIdeal.Read.val_main_v49_eq m' c).trans ?_), (h c).2.2⟩
    · rw [a0, a1, a2, a3, a4, a5, a6]
    · rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
